-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8 : Shape := ⟨1, ![8]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x3 .f32) (main_arg1 : FVec F S8x4096x3 .f32) (main_arg2 : FVec F S8 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x4096x3 : Shape := ⟨3, ![8, 4096, 3]⟩
abbrev S8 : Shape := ⟨1, ![8]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x512x3 : Shape := ⟨3, ![1, 512, 3]⟩
abbrev S1x3x4096 : Shape := ⟨3, ![1, 3, 4096]⟩
abbrev S1x512x1 : Shape := ⟨3, ![1, 512, 1]⟩
abbrev S1x1x4096 : Shape := ⟨3, ![1, 1, 4096]⟩
abbrev S512x3 : Shape := ⟨2, ![512, 3]⟩
abbrev S3x4096 : Shape := ⟨2, ![3, 4096]⟩
abbrev S512x1 : Shape := ⟨2, ![512, 1]⟩
abbrev S1x4096 : Shape := ⟨2, ![1, 4096]⟩
abbrev S512x4096 : Shape := ⟨2, ![512, 4096]⟩
abbrev S512 : Shape := ⟨1, ![512]⟩
abbrev S4096 : Shape := ⟨1, ![4096]⟩
abbrev S8x4096 : Shape := ⟨2, ![8, 4096]⟩
abbrev S_ : Shape := ⟨0, ![]⟩

abbrev nBuf : Space → Nat
  | .hbm => 24
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x3x4096, .f32⟩
  | .hbm, ⟨4, _⟩ => ⟨S8x4096x1, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  broadcasts_S512x1_S512x4096 : S512x1.Broadcasts S512x4096
  broadcasts_S1x4096_S512x4096 : S1x4096.Broadcasts S512x4096
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x4096_S4096 : S512x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S8 : Shape := ⟨1, ![8]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What one run of the kernel body leaves in the two result blocks, as values of the blocks it read.

  The block of least distances per point of the first cloud is stored once, whole: it holds the row minima of the
  block's distance matrix. The block of least distances per point of the second cloud is first set to +∞ when the run
  is the first of its cloud, then replaced by the smaller, entry by entry, of what it held and the column minima of
  the distance matrix.
-/
import proofs.«118176_j25074019074108_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → Nat) = fun _ => 0 := funext fun a => by fin_cases a <;> rfl

/-- The first cloud's block after a run that is the first of its cloud: the row minima of the distance matrix. -/
theorem rowBlock_first (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (hc0 : cond0_0 i)
    (x0 : Vec F S1x512x3 .f32) (x1 : Vec F S1x3x4096 .f32) :
    out0_A_2 c i arg2 harg2 arg3 harg3 arg4 harg4 arg5 harg5 hc0 x0 x1 = k0_pay4 x0 x1 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz3]
  simp only [View.readAt_eq_ld, harg2.read_unread, harg3.read_unread, View.ld_unit_zero (S := S1x512x3) hz3,
    View.ld_unit_zero (S := S1x3x4096) hz3]

/-- The first cloud's block after a later run: the same. -/
theorem rowBlock_later (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (hc0 : ¬cond0_0 i)
    (x0 : Vec F S1x512x3 .f32) (x1 : Vec F S1x3x4096 .f32) (xo3 : Vec F S1x1x4096 .f32) :
    out0_B_2 c i arg2 harg2 arg3 harg3 arg4 harg4 arg5 harg5 hc0 x0 x1 xo3 = k0_pay4 x0 x1 := by
  unfold out0_B_2
  rw [View.read_writes_eq_canon _ _ _ (cover0_B_2 c i arg2 harg2 arg3 harg3 arg4 harg4 arg5 harg5 hc0 x0 x1 xo3)]
  unfold kernelRun0_B
  dsimp only
  sl_unfold_words
  rw [View.canon_unit_zero hz3]
  simp only [View.readAt_eq_ld, harg2.read_unread, harg3.read_unread, View.ld_unit_zero (S := S1x512x3) hz3,
    View.ld_unit_zero (S := S1x3x4096) hz3]

/-- The second cloud's block after a run that is the first of its cloud: the column minima against +∞. -/
theorem colBlock_first (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (hc0 : cond0_0 i)
    (x0 : Vec F S1x512x3 .f32) (x1 : Vec F S1x3x4096 .f32) :
    out0_A_3 c i arg2 harg2 arg3 harg3 arg4 harg4 arg5 harg5 hc0 x0 x1 = k0_pay2 (k0_pay5 x0 x1) k0_pay1 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x4096) hz3, View.readCov_unit_zero (S := S1x1x4096) _ hz3]
  simp only [View.readAt_eq_ld, harg2.read_unread, harg3.read_unread, View.ld_unit_zero (S := S1x512x3) hz3,
    View.ld_unit_zero (S := S1x3x4096) hz3]

/-- The second cloud's block after a later run: the column minima against what the block held. -/
theorem colBlock_later (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (hc0 : ¬cond0_0 i)
    (x0 : Vec F S1x512x3 .f32) (x1 : Vec F S1x3x4096 .f32) (xo3 : Vec F S1x1x4096 .f32) :
    out0_B_3 c i arg2 harg2 arg3 harg3 arg4 harg4 arg5 harg5 hc0 x0 x1 xo3 = k0_pay2 (k0_pay5 x0 x1) xo3 := by
  unfold out0_B_3
  rw [View.read_writes_eq_canon _ _ _ (cover0_B_3 c i arg2 harg2 arg3 harg3 arg4 harg4 arg5 harg5 hc0 x0 x1 xo3)]
  unfold kernelRun0_B
  dsimp only
  sl_unfold_words
  rw [View.canon_unit_zero hz3]
  simp only [View.readAt_eq_ld, harg2.read_unread, harg3.read_unread, harg5.read_unread, View.ld_unit_zero (S := S1x512x3) hz3,
    View.ld_unit_zero (S := S1x3x4096) hz3, View.ld_unit_zero (S := S1x1x4096) hz3]

end Cert.KernelIdeal.Pieces

end
-- ==== Proof.Spec.lean ====
/-
  Chamfer distance between two clouds of 4096 points in ℝ³, eight clouds at a time, over the extended reals.

  For clouds X, Y : [8, 4096, 3] the squared distance of point n of X to point m of Y is taken in the expanded form
  |x|² + |y|² - 2·x·y, clamped below at zero; each point of X is given the least such distance over Y (`rowMin`), each
  point of Y the least over X (`colMin`). The loss (`loss`) averages both over the points, adds the two averages,
  weighs the result per cloud and averages over the eight clouds.

  The least distance over the 4096 points of X can be taken 512 points at a time: the least over the first j + 1 runs
  of 512 points is the smaller of the least over the first j runs and the least over run j (`colMinUpto_succ`); over no
  run it is +∞, over all eight runs it is the least over X.
-/
import Idealize.ShloMosaic.PureOps.Ideal.Laws
import Idealize.ShloMosaic.Lib.ValueIdx

noncomputable section

namespace Cert.Chamfer

open Idealize.ShloMosaic Idealize.ShloMosaic.ValueIdx

abbrev SCloud : Shape := ⟨3, ![8, 4096, 3]⟩
abbrev SDist : Shape := ⟨2, ![8, 4096]⟩
abbrev SBatch : Shape := ⟨1, ![8]⟩
abbrev SOne : Shape := ⟨0, ![]⟩

/-- The words the two programs share: 2, 0, +∞ (never evaluated but for the last). -/
abbrev two : EReal := Ideal.ofBits .f32 0x40000000#32
abbrev zero : EReal := Ideal.ofBits .f32 0x00000000#32
abbrev pinf : EReal := Ideal.ofBits .f32 0x7F800000#32

theorem pinf_eq_top : pinf = ⊤ := by simp [pinf, Ideal.ofBits, Ideal.ieee]

/-- |x|² of point n of cloud b. -/
def sqn (X : SCloud.Idx → EReal) (b : Fin 8) (n : Fin 4096) : EReal := ∑ k : Fin 3, X (ix3 b n k) * X (ix3 b n k)

/-- x·y of point n of X and point m of Y, in cloud b. -/
def cross (X Y : SCloud.Idx → EReal) (b : Fin 8) (n m : Fin 4096) : EReal := ∑ k : Fin 3, X (ix3 b n k) * Y (ix3 b m k)

/-- The clamped expanded squared distance. -/
def dist (X Y : SCloud.Idx → EReal) (b : Fin 8) (n m : Fin 4096) : EReal :=
  max (sqn X b n + sqn Y b m - two * cross X Y b n m) zero

/-- The least distance from point n of X to a point of Y. -/
def rowMin (X Y : SCloud.Idx → EReal) (b : Fin 8) (n : Fin 4096) : EReal := ⨅ m : Fin 4096, dist X Y b n m

/-- The least distance from point m of Y to a point of X. -/
def colMin (X Y : SCloud.Idx → EReal) (b : Fin 8) (m : Fin 4096) : EReal := ⨅ n : Fin 4096, dist X Y b n m

/-- Point r of run j (runs of 512 points). -/
abbrev runPt (j : Fin 8) (r : Fin 512) : Fin 4096 := ⟨j.val * 512 + r.val, by have := j.isLt; have := r.isLt; omega⟩

/-- The least distance from point m of Y to a point of run j of X. -/
def runMin (X Y : SCloud.Idx → EReal) (b : Fin 8) (j : Fin 8) (m : Fin 4096) : EReal := ⨅ r : Fin 512, dist X Y b (runPt j r) m

/-- The least distance from point m of Y to a point of the first j runs of X. -/
def colMinUpto (X Y : SCloud.Idx → EReal) (b : Fin 8) (j : ℕ) (m : Fin 4096) : EReal :=
  ⨅ n : Fin 4096, ⨅ _ : n.val < j * 512, dist X Y b n m

theorem colMinUpto_zero (X Y : SCloud.Idx → EReal) (b : Fin 8) (m : Fin 4096) : colMinUpto X Y b 0 m = ⊤ := by
  unfold colMinUpto
  refine le_antisymm le_top (le_iInf fun n => le_iInf fun h => ?_)
  omega

theorem colMinUpto_eight (X Y : SCloud.Idx → EReal) (b : Fin 8) (m : Fin 4096) : colMinUpto X Y b 8 m = colMin X Y b m := by
  unfold colMinUpto colMin
  refine le_antisymm (le_iInf fun n => (iInf_le _ n).trans (iInf_le _ (by have := n.isLt; omega)))
    (le_iInf fun n => le_iInf fun _ => iInf_le _ n)

theorem colMinUpto_succ (X Y : SCloud.Idx → EReal) (b : Fin 8) (j : Fin 8) (m : Fin 4096) :
    colMinUpto X Y b (j.val + 1) m = min (colMinUpto X Y b j.val m) (runMin X Y b j m) := by
  unfold colMinUpto runMin
  apply le_antisymm
  · refine le_min (le_iInf fun n => le_iInf fun h => (iInf_le _ n).trans (iInf_le _ (by omega))) (le_iInf fun r => ?_)
    exact (iInf_le _ (runPt j r)).trans (iInf_le _ (by have := r.isLt; show j.val * 512 + r.val < (j.val + 1) * 512; omega))
  · refine le_iInf fun n => le_iInf fun h => ?_
    by_cases hn : n.val < j.val * 512
    · exact (min_le_left _ _).trans ((iInf_le _ n).trans (iInf_le _ hn))
    · have hr : n.val - j.val * 512 < 512 := by omega
      have e : runPt j ⟨n.val - j.val * 512, hr⟩ = n := Fin.ext (by show j.val * 512 + (n.val - j.val * 512) = n.val; omega)
      refine (min_le_right _ _).trans ((iInf_le _ (⟨n.val - j.val * 512, hr⟩ : Fin 512)).trans ?_)
      rw [e]

/-- A fold of `min` from +∞ over a whole finite type is the infimum. -/
theorem fold_min_pinf {ι : Type} [Fintype ι] (f : ι → EReal) : (Finset.univ : Finset ι).fold min pinf f = ⨅ i, f i := by
  rw [pinf_eq_top]
  refine le_antisymm (le_iInf fun i => (Finset.fold_min_le _).2 (Or.inr ⟨i, Finset.mem_univ i, le_rfl⟩))
    ((Finset.le_fold_min _).2 ⟨le_top, fun i _ => iInf_le f i⟩)

/-- Three terms of a sum, left to right. -/
theorem sum_three (f : Fin 3 → EReal) : ∑ k : Fin 3, f k = f 0 + f 1 + f 2 := Fin.sum_univ_three f

/-! ## What both programs do with the two arrays of least distances -/

section Loss

variable {F : FTy → Type} [FloatOps F]

/-- The mean over the points of both arrays of least distances, added, weighed per cloud, and the mean over the clouds:
    the same eighteen host operations in both programs (the constants 0, 4096, 0, 4096, 0, 8). -/
def loss (dx dy : FVec F SDist .f32) (w : FVec F SBatch .f32) (hr : SDist.ReducesTo [1] SBatch) (h0 : 0 < SOne.numel)
    (hb : SOne.BroadcastsInDim SBatch (![] : Fin 0 → Fin SBatch.rank)) (hr0 : SBatch.ReducesTo [0] SOne) : FVec F SOne .f32 :=
  Host.divf (Host.reduceAdd (mulf (addf
      (Host.divf (Host.reduceAdd dx (constant SOne .f32 0x00000000#32) hr h0) (broadcastInDim SBatch ![] hb (constant SOne .f32 0x45800000#32)))
      (Host.divf (Host.reduceAdd dy (constant SOne .f32 0x00000000#32) hr h0) (broadcastInDim SBatch ![] hb (constant SOne .f32 0x45800000#32))))
    w) (constant SOne .f32 0x00000000#32) hr0 h0) (constant SOne .f32 0x41000000#32)

end Loss

end Cert.Chamfer

end
-- ==== Proof.Blocks.lean ====
/-
  Which entries of the two clouds a grid point reads.

  The grid has 64 points: point t works on cloud t div 8 and on run t mod 8 of its 512-point runs. Its block of the
  first cloud is that run's 512 points, three coordinates each; its block of the second window's array is the whole
  cloud t div 8 of the second cloud with points and coordinates exchanged (the array is the host's transpose of the
  second argument).
-/
import proofs.«118176_j25074019074108_1_alg».proof.Proof.Gen.KernelIdeal.Frame
import proofs.«118176_j25074019074108_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Chamfer

variable {F : FTy → Type} [FloatOps F]
variable (m : (ℓ : Loc nD τ sig) → Buf (Elt F) ℓ)

/-- The cloud and the run of 512 points a grid point works on: point t is run t mod 8 of cloud t div 8. -/
def cloudOf (t : Fin cfg0.N) : Fin 8 := ⟨t.val / 8, by have := lt_of_lt_of_eq t.isLt (show cfg0.N = 64 from N_0); omega⟩
def runOf (t : Fin cfg0.N) : Fin 8 := ⟨t.val % 8, by omega⟩

theorem index_x : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index_y : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)

abbrev xblk (c : Dev nD) (t : Fin cfg0.N) : Vec F S1x512x3 .f32 := iblk m c 0 t
abbrev yblk (c : Dev nD) (t : Fin cfg0.N) : Vec F S1x3x4096 .f32 := iblk m c 1 t
abbrev xarr (c : Dev nD) : Vec F S8x4096x3 .f32 := V m c main_arg0
abbrev ytarr (c : Dev nD) : Vec F S8x3x4096 .f32 := V m c main_v0

/-- Entry (r, k) of point t's block of the first cloud is coordinate k of point r of run t mod 8 of cloud t div 8. -/
theorem xblk_apply (c : Dev nD) (t : Fin cfg0.N) (u : Fin 1) (r : Fin 512) (k : Fin 3) :
    xblk m c t (ix3 u r k) = xarr m c (ix3 (cloudOf t) (runPt (runOf t) r) k) := by
  show iblk m c 0 t (ix3 u r k) = _
  unfold iblk
  rw [View.read_apply]
  show V m c main_arg0 _ = V m c main_arg0 _
  obtain ⟨h0, h1, h2⟩ := index_x t
  refine congrArg (V m c main_arg0) (funext fun a => Fin.ext ?_)
  match a with
  | ⟨0, _⟩ => show win0_0.index t 0 * 1 + 1 * u.val = t.val / 8; rw [h0]; omega
  | ⟨1, _⟩ => show win0_0.index t 1 * 512 + 1 * r.val = t.val % 8 * 512 + r.val; rw [h1]; omega
  | ⟨2, _⟩ => show win0_0.index t 2 * 3 + 1 * k.val = k.val; rw [h2]; omega

/-- Entry (k, q) of point t's block of the second window is entry (k, q) of cloud t div 8 of the transposed array. -/
theorem yblk_apply (c : Dev nD) (t : Fin cfg0.N) (u : Fin 1) (k : Fin 3) (q : Fin 4096) :
    yblk m c t (ix3 u k q) = ytarr m c (ix3 (cloudOf t) k q) := by
  show iblk m c 1 t (ix3 u k q) = _
  unfold iblk
  rw [View.read_apply]
  show V m c main_v0 _ = V m c main_v0 _
  obtain ⟨h0, h1, h2⟩ := index_y t
  refine congrArg (V m c main_v0) (funext fun a => Fin.ext ?_)
  match a with
  | ⟨0, _⟩ => show win0_1.index t 0 * 1 + 1 * u.val = t.val / 8; rw [h0]; omega
  | ⟨1, _⟩ => show win0_1.index t 1 * 3 + 1 * k.val = k.val; rw [h1]; omega
  | ⟨2, _⟩ => show win0_1.index t 2 * 4096 + 1 * q.val = q.val; rw [h2]; omega

/-- The second window's array is the second cloud with its last two axes exchanged. -/
theorem ytarr_eq (c : Dev nD) :
    ytarr m c = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-- So entry (b, k, q) of it is coordinate k of point q of cloud b of the second argument. -/
theorem ytarr_apply (c : Dev nD) (b : Fin 8) (k : Fin 3) (q : Fin 4096) :
    ytarr m c (ix3 b k q) = m ((c : Thread nD τ).loc main_arg1) (ix3 b q k) := by
  rw [ytarr_eq]
  exact transpose_ix3_021_apply _ _ b k q

/-- The first window's array is the first argument. -/
theorem xarr_eq (c : Dev nD) : xarr m c = m ((c : Thread nD τ).loc main_arg0) := V_main_arg0 m c

end Cert.KernelIdeal.Blocks

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibColwise.lean ====
/-
  Rank-2 vectors read column by column, and least values, at the extended reals, for any sizes.

    * a sum over the first axis of an `[A, B]` vector, at column `q`: `∑ₖ v(k, q)`;
    * a least value over ONE axis of a vector of any rank: the fold of `min` from the starting word's value over that
      axis's coordinates;
    * a least value over the lanes (axis 1) of an `[A, B]` vector, at row `p`, and over the first axis, at column `q`.
-/
import proofs.«118176_j25074019074108_1_alg».proof.Proof.LibRowwise
import Idealize.ShloMosaic.PureOps.Ideal.Laws
import Idealize.ShloMosaic.Lib.ValueIdx

noncomputable section

namespace Cert.Lib.Colwise

open Idealize.ShloMosaic Idealize.ShloMosaic.ValueIdx

section General

variable {A B : Nat} {φ : FTy}

/-- Column q with the row k put back is (k, q). -/
theorem lift_col (h : (⟨2, ![A, B]⟩ : Shape).Reduces [0] ⟨1, ![B]⟩) (q : Fin B) (k : Fin A) :
    h.lift (ix1 q) k = ix2 k q :=
  funext fun a => Fin.ext (by match a with | ⟨0, _⟩ => rfl | ⟨1, _⟩ => rfl)

/-- A sum over the first axis, at column q. -/
theorem colSum_apply (src : FVec Ideal ⟨2, ![A, B]⟩ φ) (acc : BitVec φ.bits) (h : (⟨2, ![A, B]⟩ : Shape).Reduces [0] ⟨1, ![B]⟩)
    (hφ : FKind.Formats φ) (hacc : acc = FKind.add.neutral φ hφ) (q : Fin B) :
    multiReduction .add [0] ⟨1, ![B]⟩ src acc h hφ hacc (ix1 q) = ∑ k : Fin A, src (ix2 k q) := by
  rw [Ideal.multiReduction_add_single]
  exact Finset.sum_congr rfl fun k _ => congrArg src (lift_col h q k)

/-- A least value over one axis: the fold of min from the starting word's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A least value over the lanes, at row p. -/
theorem laneMin_apply (src : FVec Ideal ⟨2, ![A, B]⟩ φ) (acc : BitVec φ.bits) (h : (⟨2, ![A, B]⟩ : Shape).Reduces [1] ⟨1, ![A]⟩)
    (hφ : FKind.Formats φ) (hacc : acc = FKind.minimumf.neutral φ hφ) (p : Fin A) :
    multiReduction .minimumf [1] ⟨1, ![A]⟩ src acc h hφ hacc (ix1 p)
      = (Finset.univ : Finset (Fin B)).fold min (Ideal.ofBits φ acc) (fun k => src (ix2 p k)) := by
  rw [multiReduction_minimumf_single]
  have e : (src ∘ h.lift (ix1 p)) = fun k => src (ix2 p k) := funext fun k => congrArg src (Cert.Lib.Rowwise.lift_row h p k)
  rw [e]
  rfl

/-- A least value over the first axis, at column q. -/
theorem colMin_apply (src : FVec Ideal ⟨2, ![A, B]⟩ φ) (acc : BitVec φ.bits) (h : (⟨2, ![A, B]⟩ : Shape).Reduces [0] ⟨1, ![B]⟩)
    (hφ : FKind.Formats φ) (hacc : acc = FKind.minimumf.neutral φ hφ) (q : Fin B) :
    multiReduction .minimumf [0] ⟨1, ![B]⟩ src acc h hφ hacc (ix1 q)
      = (Finset.univ : Finset (Fin A)).fold min (Ideal.ofBits φ acc) (fun k => src (ix2 k q)) := by
  rw [multiReduction_minimumf_single]
  have e : (src ∘ h.lift (ix1 q)) = fun k => src (ix2 k q) := funext fun k => congrArg src (lift_col h q k)
  rw [e]
  rfl

end General

end Cert.Lib.Colwise

end
-- ==== Proof.Payload.lean ====
/-
  The kernel's arithmetic at one grid point, over the extended reals.

  For a block x of 512 points of the first cloud and the whole second cloud y, stored coordinate first, the kernel
  forms for every pair (r, m) the clamped expanded squared distance |x_r|² + |y_m|² - 2·(x_r·y_m), the dot product
  written out term by term (blockDist), then the least of it over m for every r, and the least over r for every m;
  the running array of least distances starts at +∞ and takes the smaller of itself and the block's.
-/
import proofs.«118176_j25074019074108_1_alg».proof.Proof.Gen.KernelIdeal.Skeleton
import proofs.«118176_j25074019074108_1_alg».proof.Proof.Spec
import proofs.«118176_j25074019074108_1_alg».proof.Proof.LibRowwise
import proofs.«118176_j25074019074108_1_alg».proof.Proof.LibColwise
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Payload

open Idealize.ShloMosaic Idealize.ShloMosaic.ValueIdx Cert.Lib.Colwise

open Cert.KernelIdeal Cert.KernelIdeal.Gen Cert.KernelIdeal.Facts₀ Cert.Chamfer

/-! ## The block of distances -/

/-- the clamped expanded squared distance of point r of the x block to point m of the y block -/
def blockDist (x : Vec Ideal S1x512x3 .f32) (y : Vec Ideal S1x3x4096 .f32) (r : Fin 512) (m : Fin 4096) : EReal :=
  max ((∑ k : Fin 3, x (ix3 0 r k) * x (ix3 0 r k)) + (∑ k : Fin 3, y (ix3 0 k m) * y (ix3 0 k m))
      - two * (x (ix3 0 r 0) * y (ix3 0 0 m) + x (ix3 0 r 1) * y (ix3 0 1 m) + x (ix3 0 r 2) * y (ix3 0 2 m))) zero

/-- Coordinate k of the x block's points, cut out as a column and spread along the lanes: at (r, m), coordinate k of point r. -/
theorem xCoord_apply (x : Vec Ideal S1x512x3 .f32) (c : Nat) (k : Fin 3) (hk : k.val = c)
    (h1 : S1x512x3.ShapeCasts S512x3) (h2 : S512x3.Slices ![0, c] S512x1) (h3 : S512x1.Broadcasts S512x4096)
    (r : Fin 512) (m : Fin 4096) :
    broadcastTo S512x4096 (extractStridedSlice S512x1 ![0, c] (shapeCast S512x3 x h1) h2) h3 (ix2 r m) = x (ix3 0 r k) := by
  refine (Cert.Lib.Rowwise.columnBroadcast_apply _ h3 (by decide) r m).trans ?_
  refine (slice2_axis1_apply c _ h2 r 0 k (by rw [hk]; rfl)).trans ?_
  exact shapeCast_1ab_ab_apply x h1 r k

/-- Coordinate k of the y block's points, cut out as a row and spread over the rows: at (r, m), coordinate k of point m. -/
theorem yCoord_apply (y : Vec Ideal S1x3x4096 .f32) (c : Nat) (k : Fin 3) (hk : k.val = c)
    (h1 : S1x3x4096.ShapeCasts S3x4096) (h2 : S3x4096.Slices ![c, 0] S1x4096) (h3 : S1x4096.Broadcasts S512x4096)
    (r : Fin 512) (m : Fin 4096) :
    broadcastTo S512x4096 (extractStridedSlice S1x4096 ![c, 0] (shapeCast S3x4096 y h1) h2) h3 (ix2 r m) = y (ix3 0 k m) := by
  refine (broadcastTo_1b_ab_apply _ h3 r m).trans ?_
  refine (slice2_axis0_apply c _ h2 0 m k (by rw [hk]; rfl)).trans ?_
  exact shapeCast_1ab_ab_apply y h1 k m

/-- The squared norms of the x block's points, as a column spread along the lanes. -/
theorem xNorm_apply (x : Vec Ideal S1x512x3 .f32) (acc : BitVec 32) (hφ : FKind.Formats .f32) (hacc : acc = FKind.add.neutral .f32 hφ)
    (h1 : S1x512x3.ShapeCasts S512x3) (h2 : S512x3.Reduces [1] S512) (h3 : S512.ShapeCasts S512x1) (h4 : S512x1.Broadcasts S512x4096)
    (r : Fin 512) (m : Fin 4096) :
    broadcastTo S512x4096 (shapeCast S512x1 (multiReduction (F := Ideal) .add [1] S512
        (mulf (shapeCast S512x3 x h1) (shapeCast S512x3 x h1)) acc h2 hφ hacc) h3) h4 (ix2 r m)
      = ∑ k : Fin 3, x (ix3 0 r k) * x (ix3 0 r k) := by
  refine (Cert.Lib.Rowwise.columnBroadcast_apply _ h4 (by decide) r m).trans ?_
  refine (Cert.Lib.Rowwise.column_apply _ h3 r 0).trans ?_
  refine (Cert.Lib.Rowwise.laneSum_apply _ acc h2 hφ hacc r).trans ?_
  refine Finset.sum_congr rfl fun k _ => ?_
  rw [mulf_apply, shapeCast_1ab_ab_apply]

/-- The squared norms of the y block's points, as a row spread over the rows. -/
theorem yNorm_apply (y : Vec Ideal S1x3x4096 .f32) (acc : BitVec 32) (hφ : FKind.Formats .f32) (hacc : acc = FKind.add.neutral .f32 hφ)
    (h1 : S1x3x4096.ShapeCasts S3x4096) (h2 : S3x4096.Reduces [0] S4096) (h3 : S4096.ShapeCasts S1x4096) (h4 : S1x4096.Broadcasts S512x4096)
    (r : Fin 512) (m : Fin 4096) :
    broadcastTo S512x4096 (shapeCast S1x4096 (multiReduction (F := Ideal) .add [0] S4096
        (mulf (shapeCast S3x4096 y h1) (shapeCast S3x4096 y h1)) acc h2 hφ hacc) h3) h4 (ix2 r m)
      = ∑ k : Fin 3, y (ix3 0 k m) * y (ix3 0 k m) := by
  refine (broadcastTo_1b_ab_apply _ h4 r m).trans ?_
  refine (shapeCast_a_1a_apply _ h3 0 m).trans ?_
  refine (colSum_apply _ acc h2 hφ hacc m).trans ?_
  refine Finset.sum_congr rfl fun k _ => ?_
  rw [mulf_apply, shapeCast_1ab_ab_apply]

/-- The clamped expanded form depends on its eight entries only. -/
theorem dist_congr {a a' b b' c0 c0' d0 d0' c1 c1' d1 d1' c2 c2' d2 d2' : EReal} (ha : a = a') (hb : b = b')
    (hc0 : c0 = c0') (hd0 : d0 = d0') (hc1 : c1 = c1') (hd1 : d1 = d1') (hc2 : c2 = c2') (hd2 : d2 = d2') :
    max (a + b - two * (c0 * d0 + c1 * d1 + c2 * d2)) zero = max (a' + b' - two * (c0' * d0' + c1' * d1' + c2' * d2')) zero := by
  rw [ha, hb, hc0, hd0, hc1, hd1, hc2, hd2]

theorem pay3_apply (x : Vec Ideal S1x512x3 .f32) (y : Vec Ideal S1x3x4096 .f32) (r : Fin 512) (m : Fin 4096) :
    k0_pay3 (F := Ideal) x y (ix2 r m) = blockDist x y r m := by
  unfold k0_pay3 blockDist
  simp only [maximumf_apply, subf_apply, addf_apply, mulf_apply, broadcast_apply]
  exact dist_congr (xNorm_apply x _ _ _ _ _ _ _ r m) (yNorm_apply y _ _ _ _ _ _ _ r m)
    (xCoord_apply x 0 0 rfl _ _ _ r m) (yCoord_apply y 0 0 rfl _ _ _ r m)
    (xCoord_apply x 1 1 rfl _ _ _ r m) (yCoord_apply y 1 1 rfl _ _ _ r m)
    (xCoord_apply x 2 2 rfl _ _ _ r m) (yCoord_apply y 2 2 rfl _ _ _ r m)

/-! ## The least distances of the block -/

theorem pay4_apply (x : Vec Ideal S1x512x3 .f32) (y : Vec Ideal S1x3x4096 .f32) (u : Fin 1) (r : Fin 512) (v : Fin 1) :
    k0_pay4 (F := Ideal) x y (ix3 u r v) = ⨅ m : Fin 4096, blockDist x y r m := by
  unfold k0_pay4
  refine (shapeCast_ab_1ab_apply _ _ u r v).trans ?_
  refine (Cert.Lib.Rowwise.column_apply _ _ r v).trans ?_
  refine (laneMin_apply _ _ _ _ _ r).trans ?_
  refine (fold_min_pinf _).trans ?_
  exact iInf_congr fun m => pay3_apply x y r m

theorem pay5_apply (x : Vec Ideal S1x512x3 .f32) (y : Vec Ideal S1x3x4096 .f32) (u : Fin 1) (m : Fin 4096) :
    k0_pay5 (F := Ideal) x y (ix2 u m) = ⨅ r : Fin 512, blockDist x y r m := by
  unfold k0_pay5
  refine (shapeCast_a_1a_apply _ _ u m).trans ?_
  refine (colMin_apply _ _ _ _ _ m).trans ?_
  refine (fold_min_pinf _).trans ?_
  exact iInf_congr fun r => pay3_apply x y r m

/-! ## The running array of least distances -/

theorem pay2_apply (v41 : FVec Ideal S1x4096 .f32) (v45 : Vec Ideal S1x1x4096 .f32) (u v : Fin 1) (m : Fin 4096) :
    k0_pay2 (F := Ideal) v41 v45 (ix3 u v m) = min (v45 (ix3 0 0 m)) (v41 (ix2 0 m)) := by
  unfold k0_pay2
  obtain rfl : v = 0 := Subsingleton.elim _ _
  refine (shapeCast_ab_1ab_apply _ _ u 0 m).trans ?_
  refine (minimumf_apply _ _ _).trans ?_
  exact congrArg (fun t => min t (v41 (ix2 0 m))) (shapeCast_1ab_ab_apply v45 _ 0 m)

theorem pay1_apply (u v : Fin 1) (m : Fin 4096) : k0_pay1 (F := Ideal) (ix3 u v m) = ⊤ := by
  unfold k0_pay1
  refine (shapeCast_ab_1ab_apply _ _ u v m).trans ?_
  exact pinf_eq_top

end Cert.KernelIdeal.Payload

end
-- ==== Proof.Accum.lean ====
/-
  What the two result blocks hold after each grid point, as least distances between the clouds.

  After point t (run j = t mod 8 of cloud b = t div 8) the first result's block holds, for each point of the run, its
  least distance to a point of the second cloud; the second result's block holds, for each point of the second cloud,
  its least distance to a point of the runs 0 … j of the first cloud: +∞ against run 0 at the cloud's first point,
  then one more run at every later point (by induction on the point).
-/
import proofs.«118176_j25074019074108_1_alg».proof.Proof.Pieces
import proofs.«118176_j25074019074108_1_alg».proof.Proof.Blocks
import proofs.«118176_j25074019074108_1_alg».proof.Proof.Payload
import proofs.«118176_j25074019074108_1_alg».proof.Proof.Spec

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.Chamfer
open Cert.KernelIdeal.Blocks Cert.KernelIdeal.Payload Cert.KernelIdeal.Pieces

variable (m : (ℓ : Loc nD τ sig) → Buf (Elt Ideal) ℓ)

/-- The two clouds as launched. -/
abbrev X (c : Dev nD) : FVec Ideal S8x4096x3 .f32 := m ((c : Thread nD τ).loc main_arg0)
abbrev Y (c : Dev nD) : FVec Ideal S8x4096x3 .f32 := m ((c : Thread nD τ).loc main_arg1)

/-- The distance matrix of point t's blocks is the clouds' distance, rows the run's points. -/
theorem blockDist_eq (c : Dev nD) (t : Fin cfg0.N) (r : Fin 512) (q : Fin 4096) :
    blockDist (xblk m c t) (yblk m c t) r q = dist (X m c) (Y m c) (cloudOf t) (runPt (runOf t) r) q := by
  unfold blockDist Cert.Chamfer.dist sqn cross
  simp only [xblk_apply, yblk_apply, sum_three]
  rw [xarr_eq m c, ytarr_apply m c (cloudOf t) 0 q, ytarr_apply m c (cloudOf t) 1 q, ytarr_apply m c (cloudOf t) 2 q]

/-- The row minima of point t's distance matrix. -/
theorem rowPay_eq (c : Dev nD) (t : Fin cfg0.N) (u : Fin 1) (r : Fin 512) (v : Fin 1) :
    k0_pay4 (F := Ideal) (xblk m c t) (yblk m c t) (ix3 u r v) = rowMin (X m c) (Y m c) (cloudOf t) (runPt (runOf t) r) := by
  rw [pay4_apply]
  unfold rowMin
  exact iInf_congr fun q => blockDist_eq m c t r q

/-- The column minima of point t's distance matrix against a block `prev`. -/
theorem colPay_eq (c : Dev nD) (t : Fin cfg0.N) (prev : Vec Ideal S1x1x4096 .f32) (u v : Fin 1) (q : Fin 4096) :
    k0_pay2 (F := Ideal) (k0_pay5 (xblk m c t) (yblk m c t)) prev (ix3 u v q)
      = min (prev (ix3 0 0 q)) (runMin (X m c) (Y m c) (cloudOf t) (runOf t) q) := by
  rw [pay2_apply, pay5_apply]
  unfold runMin
  exact congrArg (min _) (iInf_congr fun r => blockDist_eq m c t r q)

/-- The first result's block after point t. -/
theorem rowBlock_eq (c : Dev nD) (t : Fin cfg0.N) (u : Fin 1) (r : Fin 512) (v : Fin 1) :
    (outsAt0 m c t.val t.isLt).1 (ix3 u r v) = rowMin (X m c) (Y m c) (cloudOf t) (runPt (runOf t) r) := by
  by_cases h0 : t.val % 8 = 0
  · rw [outsAt0_A m c t h0]
    dsimp only
    exact (congrFun (rowBlock_first (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix3 u r v)).trans
      (rowPay_eq m c t u r v)
  · rw [outsAt0_B m c t h0]
    dsimp only
    exact (congrFun (rowBlock_later (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2) (ix3 u r v)).trans (rowPay_eq m c t u r v)

/-- The second result's block after point t, given what it held after the point before (when t is not a cloud's first). -/
theorem colBlock_step (c : Dev nD) (t : Fin cfg0.N)
    (ih : ¬t.val % 8 = 0 → ∀ q : Fin 4096, (outsAt0 m c (t.val - 1) (Nat.lt_of_le_of_lt (Nat.sub_le _ _) t.isLt)).2 (ix3 0 0 q)
      = colMinUpto (X m c) (Y m c) (cloudOf t) (t.val % 8) q)
    (u v : Fin 1) (q : Fin 4096) :
    (outsAt0 m c t.val t.isLt).2 (ix3 u v q) = colMinUpto (X m c) (Y m c) (cloudOf t) (t.val % 8 + 1) q := by
  have hs := colMinUpto_succ (X m c) (Y m c) (cloudOf t) (runOf t) q
  have hr : (runOf t).val = t.val % 8 := rfl
  rw [hr] at hs
  by_cases h0 : t.val % 8 = 0
  · rw [outsAt0_A m c t h0]
    dsimp only
    refine (congrFun (colBlock_first (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)) (ix3 u v q)).trans ?_
    rw [colPay_eq m c t _ u v q, hs, pay1_apply, h0, colMinUpto_zero]
  · rw [outsAt0_B m c t h0]
    dsimp only
    refine (congrFun (colBlock_later (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).2) (ix3 u v q)).trans ?_
    rw [colPay_eq m c t _ u v q, hs, ih h0 q]

/-- The second result's block after every point, by induction on the point. -/
theorem colBlock_eq (c : Dev nD) : ∀ (n : ℕ) (h : n < cfg0.N) (u v : Fin 1) (q : Fin 4096),
    (outsAt0 m c n h).2 (ix3 u v q) = colMinUpto (X m c) (Y m c) (cloudOf ⟨n, h⟩) (n % 8 + 1) q
  | 0, h, u, v, q => colBlock_step m c ⟨0, h⟩ (fun h0 => absurd (Nat.zero_mod 8) h0) u v q
  | n + 1, h, u, v, q => by
    refine colBlock_step m c ⟨n + 1, h⟩ (fun h0 q' => ?_) u v q
    have hN : n + 1 < 64 := lt_of_lt_of_eq h (show cfg0.N = 64 from N_0)
    have h0' : ¬(n + 1) % 8 = 0 := h0
    have e := colBlock_eq c n (Nat.lt_of_succ_lt h) 0 0 q'
    have ec : cloudOf ⟨n, Nat.lt_of_succ_lt h⟩ = cloudOf ⟨n + 1, h⟩ := Fin.ext (by show n / 8 = (n + 1) / 8; omega)
    have en : n % 8 + 1 = (n + 1) % 8 := by omega
    rw [ec, en] at e
    exact e

end Cert.KernelIdeal.Accum

end
-- ==== Proof.KernelValue.lean ====
/-
  The kernel program's result as the loss of the two clouds.

  Each grid point writes its block of the first result back; together the blocks tile the [8, 4096, 1] array, which so
  ends holding every point's least distance to the second cloud. The second result's block is written back only at the
  last run of each cloud (points 7, 15, …, 63), when it holds the least distances to all eight runs: the [8, 1, 4096]
  array ends holding every point's least distance to the first cloud. The host operations after the region drop the
  unit axes and take the loss.
-/
import proofs.«118176_j25074019074108_1_alg».proof.Proof.Accum
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Chamfer
open Cert.KernelIdeal.Blocks Cert.KernelIdeal.Accum

variable (m : (ℓ : Loc nD τ sig) → Buf (Elt Ideal) ℓ) (ρ : Dev nD → PrngReg)

/-- The result windows' block indices: point t writes block (t div 8, t mod 8, 0) of the first result and block
    (t div 8, 0, 0) of the second. -/
theorem index_row : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem index_col : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- What the two result arrays end holding. -/
abbrev GRow (c : Dev nD) : S8x4096x1.Idx → Elt Ideal .f32 := fun i => rowMin (X m c) (Y m c) (i 0) (i 1)
abbrev GCol (c : Dev nD) : S8x1x4096.Idx → Elt Ideal .f32 := fun i => colMin (X m c) (Y m c) (i 0) (i 2)

/-! ## The first result -/

theorem flushedRow_eq (c : Dev nD) (t : Fin cfg0.N) :
    (dats m 0 c).flushed 2 t = ((cfg0.win 2).blk t).view.read (Elt Ideal) (GRow m c) := by
  show (cfg0.win 2).cut (grid0.coords t) ((dats m 0 c).after 2 t) = _
  rw [after0_2]
  obtain ⟨e0, e1, e2⟩ := index_row t
  funext y
  obtain ⟨u, r, v, rfl⟩ : ∃ (u : Fin 1) (r : Fin 512) (v : Fin 1), y = ix3 u r v := ⟨y 0, y 1, y 2, eq_ix3 y⟩
  rw [View.read_apply]
  show (outsAt0 m c t.val t.isLt).1 (ix3 u r v) = GRow m c (((cfg0.win 2).blk t).view.emb (ix3 u r v))
  refine (rowBlock_eq m c t u r v).trans ?_
  have ha : cloudOf t = (((cfg0.win 2).blk t).view.emb (ix3 u r v)) 0 := Fin.ext (by
    show t.val / 8 = win0_2.index t 0 * 1 + 1 * u.val
    have := u.isLt; omega)
  have hb : runPt (runOf t) r = (((cfg0.win 2).blk t).view.emb (ix3 u r v)) 1 := Fin.ext (by
    show t.val % 8 * 512 + r.val = win0_2.index t 1 * 512 + 1 * r.val
    omega)
  exact congrArg₂ (rowMin (X m c) (Y m c)) ha hb

theorem mem_rowBlk (t : Fin cfg0.N) (i : S8x4096x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v1_0).slice (win0_2.rect t)).set ↔ _
  rw [View.set_slice_whole, Rect.mem_set_unit]
  exact Iff.rfl

theorem coverRow (i : S8x4096x1.Idx) : ∃ t : Fin cfg0.N, (cfg0.win 2).flush t = true ∧ i ∈ ((cfg0.win 2).blk t).view.set := by
  have hN : cfg0.N = 64 := N_0
  have h0 : (i 0).val < 8 := (i 0).isLt
  have h1 : (i 1).val < 4096 := (i 1).isLt
  have h2 : (i 2).val < 1 := (i 2).isLt
  obtain ⟨t, tv⟩ : ∃ t : Fin cfg0.N, t.val = (i 0).val * 8 + (i 1).val / 512 := ⟨⟨(i 0).val * 8 + (i 1).val / 512, by rw [hN]; omega⟩, rfl⟩
  obtain ⟨e0, e1, e2⟩ := index_row t
  refine ⟨t, flush0_2 t, ?_⟩
  rw [mem_rowBlk]
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 1 ≤ (i 2).val ∧ (i 2).val < win0_2.index t 2 * 1 + 1; omega

theorem finalRow (c : Dev nD) : (dats m 0 c).arrAt 2 cfg0.N = GRow m c :=
  (dats m 0 c).arrAt_eq_of_cover 2 (GRow m c) (fun t _ => flushedRow_eq m c t) coverRow

/-! ## The second result -/

theorem flushedCol_eq (c : Dev nD) (t : Fin cfg0.N) (hf : (cfg0.win 3).flush t = true) :
    (dats m 0 c).flushed 3 t = ((cfg0.win 3).blk t).view.read (Elt Ideal) (GCol m c) := by
  have h7 : t.val % 8 = 7 := (flush0_3 t).mp hf
  show (cfg0.win 3).cut (grid0.coords t) ((dats m 0 c).after 3 t) = _
  rw [after0_3]
  obtain ⟨e0, e1, e2⟩ := index_col t
  funext y
  obtain ⟨u, v, q, rfl⟩ : ∃ (u v : Fin 1) (q : Fin 4096), y = ix3 u v q := ⟨y 0, y 1, y 2, eq_ix3 y⟩
  rw [View.read_apply]
  show (outsAt0 m c t.val t.isLt).2 (ix3 u v q) = GCol m c (((cfg0.win 3).blk t).view.emb (ix3 u v q))
  rw [colBlock_eq m c t.val t.isLt u v q, h7, colMinUpto_eight]
  have ha : cloudOf t = (((cfg0.win 3).blk t).view.emb (ix3 u v q)) 0 := Fin.ext (by
    show t.val / 8 = win0_3.index t 0 * 1 + 1 * u.val
    have := u.isLt; omega)
  have hb : q = (((cfg0.win 3).blk t).view.emb (ix3 u v q)) 2 := Fin.ext (by
    show q.val = win0_3.index t 2 * 4096 + 1 * q.val
    omega)
  exact congrArg₂ (colMin (X m c) (Y m c)) ha hb

theorem mem_colBlk (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

theorem coverCol (i : S8x1x4096.Idx) : ∃ t : Fin cfg0.N, (cfg0.win 3).flush t = true ∧ i ∈ ((cfg0.win 3).blk t).view.set := by
  have hN : cfg0.N = 64 := N_0
  have h0 : (i 0).val < 8 := (i 0).isLt
  have h1 : (i 1).val < 1 := (i 1).isLt
  have h2 : (i 2).val < 4096 := (i 2).isLt
  obtain ⟨t, tv⟩ : ∃ t : Fin cfg0.N, t.val = (i 0).val * 8 + 7 := ⟨⟨(i 0).val * 8 + 7, by rw [hN]; omega⟩, rfl⟩
  obtain ⟨e0, e1, e2⟩ := index_col t
  refine ⟨t, (flush0_3 t).mpr (by omega), ?_⟩
  rw [mem_colBlk]
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 4096 ≤ (i 2).val ∧ (i 2).val < win0_3.index t 2 * 4096 + 4096; omega

theorem finalCol (c : Dev nD) : (dats m 0 c).arrAt 3 cfg0.N = GCol m c :=
  (dats m 0 c).arrAt_eq_of_cover 3 (GCol m c) (fun t hf => flushedCol_eq m c t hf) coverCol

/-! ## The host operations after the region -/

/-- Dropping the unit axis of the first result. -/
theorem reshapeRow (c : Dev nD) :
    shapeCast S8x4096 (GRow m c) shapeCasts_S8x4096x1_S8x4096 = fun i => rowMin (X m c) (Y m c) (i 0) (i 1) := by
  funext i
  obtain ⟨b, n, rfl⟩ : ∃ (b : Fin 8) (n : Fin 4096), i = ix2 b n := ⟨i 0, i 1, eq_ix2 i⟩
  refine (shapeCast_apply (GRow m c) shapeCasts_S8x4096x1_S8x4096 (ix2 b n) (ix3 b n 0) ?_).trans rfl
  rw [Shape.rowMajor_val_three, Shape.rowMajor_val_two]
  show (b.val * 4096 + n.val) * 1 + 0 = b.val * 4096 + n.val
  omega

/-- Dropping the unit axis of the second result. -/
theorem reshapeCol (c : Dev nD) :
    shapeCast S8x4096 (GCol m c) shapeCasts_S8x1x4096_S8x4096 = fun i => colMin (X m c) (Y m c) (i 0) (i 1) := by
  funext i
  obtain ⟨b, q, rfl⟩ : ∃ (b : Fin 8) (q : Fin 4096), i = ix2 b q := ⟨i 0, i 1, eq_ix2 i⟩
  refine (shapeCast_apply (GCol m c) shapeCasts_S8x1x4096_S8x4096 (ix2 b q) (ix3 b 0 q) ?_).trans rfl
  rw [Shape.rowMajor_val_three, Shape.rowMajor_val_two]
  show (b.val * 1 + 0) * 4096 + q.val = b.val * 4096 + q.val
  omega

/-- The program's result: the loss of the two arrays of least distances and the weights. -/
theorem tail_eq (c : Dev nD) :
    Pipeline.afterTail₀ cfgs (dats m) 0 (V0 m) [hostOps1] c main_v13
      = loss (F := Ideal) (fun i => rowMin (X m c) (Y m c) (i 0) (i 1)) (fun i => colMin (X m c) (Y m c) (i 0) (i 1))
          (m ((c : Thread nD τ).loc main_arg2)) reducesTo_S8x4096_S8_d1 h_S_ bcast_S_S8 reducesTo_S8_S_d0 := by
  unfold Pipeline.afterTail₀
  show StableHlo.after hostOps1 _ (Proc.devRef .tc main_v13) = _
  after_results
  have h2 := (Pipeline.withArrays_arr spec0 launch0.win.arr_inj c (V0 m c) (fun w => (dats m 0 c).arrAt w cfg0.N) 2).trans (finalRow m c)
  have h3 := (Pipeline.withArrays_arr spec0 launch0.win.arr_inj c (V0 m c) (fun w => (dats m 0 c).arrAt w cfg0.N) 3).trans (finalCol m c)
  have hw := (Pipeline.withArrays_of_ne spec0 c (V0 m c) (fun w => (dats m 0 c).arrAt w cfg0.N) main_arg2
    (by exact (by decide : ∀ w, Pipeline.arrRef spec0 w ≠ main_arg2))).trans (V_main_arg2 m c)
  rw [← reshapeRow m c, ← reshapeCol m c, ← h2, ← h3, ← hw]
  rfl

/-- The run, read: the result at the loss, the arguments unchanged. -/
theorem run : θ_run defs (onTc (τ := τ) (main (F := Ideal))) ⟨m, fun _ => 0, ρ⟩ fun r => ∀ c : Dev nD,
      r.2.mem ((c.tc : Thread nD τ).loc main_v13)
        = loss (F := Ideal) (fun i => rowMin (X m c) (Y m c) (i 0) (i 1)) (fun i => colMin (X m c) (Y m c) (i 0) (i 1))
            (m ((c : Thread nD τ).loc main_arg2)) reducesTo_S8x4096_S8_d1 h_S_ bcast_S_S8 reducesTo_S8_S_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference program's result as the loss of the two clouds.

  Entry (b, n, m) of its clamped distance array is the expanded squared distance of point n of the first cloud to point
  m of the second (the two squared norms through their broadcasts, the batched product as a sum over the three
  coordinates); its two minimum-reductions from +∞, over the last axis and over the middle one, are the least distances
  per point of the first and of the second cloud; what follows is the loss of those two arrays and the weights.
-/
import proofs.«118176_j25074019074108_1_alg».proof.Proof.Gen.ReferenceIdeal.Read
import proofs.«118176_j25074019074108_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Chamfer

/-- Coordinate k of point n of cloud b, reached through the two broadcasts of the squared norms of X. -/
theorem idxX (b : Fin 8) (n m : Fin 4096) (k : Fin 3) :
    idx_main_v1 (idx_main_v5 (idx_main_v7 (ix3 b n m))) k = ix3 b n k :=
  funext fun a => Fin.ext (by match a with | ⟨0, _⟩ => rfl | ⟨1, _⟩ => rfl | ⟨2, _⟩ => rfl)

/-- Coordinate k of point m of cloud b, reached through the two broadcasts of the squared norms of Y. -/
theorem idxY (b : Fin 8) (n m : Fin 4096) (k : Fin 3) :
    idx_main_v3 (idx_main_v6 (idx_main_v8 (ix3 b n m))) k = ix3 b m k :=
  funext fun a => Fin.ext (by match a with | ⟨0, _⟩ => rfl | ⟨1, _⟩ => rfl | ⟨2, _⟩ => rfl)

/-- The left factor of the product of entry (b, n, m) is point n of X. -/
theorem idxL (b : Fin 8) (n m : Fin 4096) (k : Fin 3) : lidx_main_v4 (ix3 b n m) k = ix3 b n k :=
  funext fun a => Fin.ext (by match a with | ⟨0, _⟩ => rfl | ⟨1, _⟩ => rfl | ⟨2, _⟩ => rfl)

/-- The right factor of the product of entry (b, n, m) is point m of Y. -/
theorem idxR (b : Fin 8) (n m : Fin 4096) (k : Fin 3) : ridx_main_v4 (ix3 b n m) k = ix3 b m k :=
  funext fun a => Fin.ext (by match a with | ⟨0, _⟩ => rfl | ⟨1, _⟩ => rfl | ⟨2, _⟩ => rfl)

/-- Entry (b, n, m) of the clamped array is the clamped expanded squared distance of point n of X to point m of Y. -/
theorem dist_apply (X Y : FVec Ideal S8x4096x3 .f32) (b : Fin 8) (n m : Fin 4096) :
    val_main_v14 (F := Ideal) X Y (ix3 b n m) = dist X Y b n m := by
  rw [val_main_v14_apply, val_main_v12_apply, val_main_v13_apply, val_main_v9_apply, val_main_v11_apply,
    val_main_v7_apply, val_main_v8_apply, val_main_v5_apply, val_main_v6_apply, val_main_v1_apply, val_main_v3_apply,
    val_main_v10_apply, val_main_v4_apply, val_main_cst_apply, val_main_cst_0_apply, val_main_cst_1_apply,
    val_main_cst_2_apply]
  simp only [val_main_v0_apply, val_main_v2_apply, idxX, idxY, idxL, idxR]
  unfold Cert.Chamfer.dist sqn cross
  show max ((Ideal.ofBits .f32 0x00000000#32 + ∑ k : Fin 3, X (ix3 b n k) * X (ix3 b n k))
      + (Ideal.ofBits .f32 0x00000000#32 + ∑ k : Fin 3, Y (ix3 b m k) * Y (ix3 b m k))
      - two * ∑ k : Fin 3, X (ix3 b n k) * Y (ix3 b m k)) zero = _
  refine congrArg (fun t => max t zero) ?_
  rw [Ideal.ofBits_zero_f32, zero_add, zero_add]

/-- Putting coordinate m back after the first two coordinates (b, n). -/
theorem lift_last (h : S8x4096x4096.Reduces [2] Cert.ReferenceIdeal.S8x4096) (b : Fin 8) (n m : Fin 4096) :
    h.lift (ix2 b n) m = ix3 b n m :=
  funext fun a => Fin.ext (by match a with | ⟨0, _⟩ => rfl | ⟨1, _⟩ => rfl | ⟨2, _⟩ => rfl)

/-- Putting coordinate n back between the coordinates (b, m). -/
theorem lift_mid (h : S8x4096x4096.Reduces [1] Cert.ReferenceIdeal.S8x4096) (b : Fin 8) (m n : Fin 4096) :
    h.lift (ix2 b m) n = ix3 b n m :=
  funext fun a => Fin.ext (by match a with | ⟨0, _⟩ => rfl | ⟨1, _⟩ => rfl | ⟨2, _⟩ => rfl)

/-- From +∞ the minimum over the last axis, at (b, n), is the infimum over that axis. -/
theorem minLast_apply (x : FVec Ideal S8x4096x4096 .f32) (h : S8x4096x4096.Reduces [2] Cert.ReferenceIdeal.S8x4096)
    (b : Fin 8) (n : Fin 4096) :
    Host.reduce FloatOps.minimumf x (val_main_cst_3 (F := Ideal)) reducesTo_S8x4096x4096_S8x4096_d2 h_S_ (ix2 b n)
      = ⨅ m : Fin 4096, x (ix3 b n m) := by
  rw [Host.reduce_eq_fold_single FloatOps.minimumf x _ reducesTo_S8x4096x4096_S8x4096_d2 h h_S_]
  have hf : (x ∘ h.lift (ix2 b n)) = fun m : Fin 4096 => x (ix3 b n m) := funext fun m => congrArg x (lift_last h b n m)
  refine Eq.trans ?_ (fold_min_pinf fun m : Fin 4096 => x (ix3 b n m))
  exact congrArg (fun f => Finset.fold min pinf f (Finset.univ : Finset (Fin 4096))) hf

/-- From +∞ the minimum over the middle axis, at (b, m), is the infimum over that axis. -/
theorem minMid_apply (x : FVec Ideal S8x4096x4096 .f32) (h : S8x4096x4096.Reduces [1] Cert.ReferenceIdeal.S8x4096)
    (b : Fin 8) (m : Fin 4096) :
    Host.reduce FloatOps.minimumf x (val_main_cst_4 (F := Ideal)) reducesTo_S8x4096x4096_S8x4096_d1 h_S_ (ix2 b m)
      = ⨅ n : Fin 4096, x (ix3 b n m) := by
  rw [Host.reduce_eq_fold_single FloatOps.minimumf x _ reducesTo_S8x4096x4096_S8x4096_d1 h h_S_]
  have hf : (x ∘ h.lift (ix2 b m)) = fun n : Fin 4096 => x (ix3 b n m) := funext fun n => congrArg x (lift_mid h b m n)
  refine Eq.trans ?_ (fold_min_pinf fun n : Fin 4096 => x (ix3 b n m))
  exact congrArg (fun f => Finset.fold min pinf f (Finset.univ : Finset (Fin 4096))) hf

/-- The minimum over the last axis is the least distance from each point of X to the points of Y. -/
theorem rowMin_eq (X Y : FVec Ideal S8x4096x3 .f32) :
    val_main_v15 (F := Ideal) X Y = fun i => rowMin X Y (i 0) (i 1) := by
  funext i
  obtain ⟨b, n, rfl⟩ : ∃ (b : Fin 8) (n : Fin 4096), i = ix2 b n := ⟨i 0, i 1, eq_ix2 i⟩
  show val_main_v15 (F := Ideal) X Y (ix2 b n) = rowMin X Y b n
  unfold val_main_v15
  refine (minLast_apply _ (by decide) b n).trans ?_
  unfold rowMin
  exact iInf_congr fun m => dist_apply X Y b n m

/-- The minimum over the middle axis is the least distance from each point of Y to the points of X. -/
theorem colMin_eq (X Y : FVec Ideal S8x4096x3 .f32) :
    val_main_v16 (F := Ideal) X Y = fun i => colMin X Y (i 0) (i 1) := by
  funext i
  obtain ⟨b, m, rfl⟩ : ∃ (b : Fin 8) (m : Fin 4096), i = ix2 b m := ⟨i 0, i 1, eq_ix2 i⟩
  show val_main_v16 (F := Ideal) X Y (ix2 b m) = colMin X Y b m
  unfold val_main_v16
  refine (minMid_apply _ (by decide) b m).trans ?_
  unfold colMin
  exact iInf_congr fun n => dist_apply X Y b n m

/-- The reference's result is the common tail applied to the two arrays of least distances. -/
theorem result_eq (X Y : FVec Ideal S8x4096x3 .f32) (W : FVec Ideal S8 .f32) :
    val_main_v26 (F := Ideal) X Y W
      = loss (F := Ideal) (fun i => rowMin X Y (i 0) (i 1)) (fun i => colMin X Y (i 0) (i 1)) W
          reducesTo_S8x4096_S8_d1 h_S_ bcast_S_S8 reducesTo_S8_S_d0 := by
  rw [← rowMin_eq, ← colMin_eq]
  rfl

end Cert.ReferenceIdeal.RefValue

end
-- ==== Proof.lean ====
/-
  The kernel program and the reference program compute one loss of two clouds of points.

  Both programs take two batches of eight clouds of 4096 points in ℝ³ and eight weights. For every pair of points, one
  of each cloud, both form the squared distance in the expanded form |x|² + |y|² - 2·x·y, clamped below at zero (the
  reference by one batched product of the clouds, the kernel by three products of coordinates added up: one sum of
  three terms either way); both give every point its least such distance to the other cloud (the reference by two
  minimum-reductions of the whole distance array; the kernel by the row minima of 512 × 4096 pieces of it for the first
  cloud, and for the second cloud by the column minima of the pieces folded, piece after piece, from +∞); both then
  take the same mean, sum, weighting and mean of the two arrays of least distances. Over the extended reals a minimum
  over 4096 values is the minimum of the minima over eight runs of 512, in any grouping, and no law beyond that and
  the reading of a three-term sum is used: the precondition is not needed.

  The frames of the two kernel programs are the generated ones; the reference's is its generated run with the result
  dropped; the idealization rewrote nothing.
-/
import proofs.«118176_j25074019074108_1_alg».proof.Defs
import proofs.«118176_j25074019074108_1_alg».proof.Proof.Gen.Kernel
import proofs.«118176_j25074019074108_1_alg».proof.Proof.Gen.Kernel.Skeleton
import proofs.«118176_j25074019074108_1_alg».proof.Proof.Gen.Kernel.Launch
import proofs.«118176_j25074019074108_1_alg».proof.Proof.Gen.Kernel.Points
import proofs.«118176_j25074019074108_1_alg».proof.Proof.Gen.Kernel.Frame
import proofs.«118176_j25074019074108_1_alg».proof.Proof.Gen.KernelIdeal
import proofs.«118176_j25074019074108_1_alg».proof.Proof.Gen.KernelIdeal.Skeleton
import proofs.«118176_j25074019074108_1_alg».proof.Proof.Gen.KernelIdeal.Launch
import proofs.«118176_j25074019074108_1_alg».proof.Proof.Gen.KernelIdeal.Points
import proofs.«118176_j25074019074108_1_alg».proof.Proof.Gen.KernelIdeal.Frame
import proofs.«118176_j25074019074108_1_alg».proof.Proof.Gen.ReferenceIdeal
import proofs.«118176_j25074019074108_1_alg».proof.Proof.Gen.ReferenceIdeal.Run
import proofs.«118176_j25074019074108_1_alg».proof.Proof.Gen.ReferenceIdeal.Read
import proofs.«118176_j25074019074108_1_alg».proof.Proof.Gen.Pre_finite_inputs
import proofs.«118176_j25074019074108_1_alg».proof.Proof.KernelValue
import proofs.«118176_j25074019074108_1_alg».proof.Proof.RefValue
import Idealize.ShloMosaic.Adequacy
import Idealize.ShloMosaic.Init

noncomputable section

namespace Cert.Proof

open Idealize.ShloMosaic Idealize.SL.Sem Cert.Chamfer

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the loss of the two arrays of least distances of the clouds they were launched with, and the
    clouds and weights agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
